-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .bf16⟩
  | .hbm, ⟨41, _⟩ => ⟨S128x128, .bf16⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x64, .bf16⟩
  | .hbm, ⟨61, _⟩ => ⟨S128x64, .bf16⟩
  | .hbm, ⟨62, _⟩ => ⟨S1x64, .f32⟩
  | .hbm, ⟨63, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .bf16⟩
  | .local _ .vmem, ⟨14, _⟩ => ⟨S1x64, .f32⟩
  | .local _ .vmem, ⟨15, _⟩ => ⟨S128x64, .bf16⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.MatmulA.lean ====
/-
  The first layer's matrix product and bias row, read at an entry, at the ideal instance.

  The matrix unit multiplies a block of 2000 rows, 128 wide, by a whole 128 × 128 weight matrix into a zero
  accumulator: entry (p, q) of the result is the sum over k of row p of the block against column q of the weights.
  The bias, a single row of 128, is repeated down the 2000 rows of the block.
-/
import proofs.«159466_j1090921693773_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-! ### Which operand entries a result entry's k-th term reads -/

theorem mmA_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmA_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mmA_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mmA_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the product is the sum over the contracted axis of row `p` of the left factor against
    column `q` of the right one (the accumulator is zero). -/
theorem mmA_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  show FloatOps.matmul dot_S2000x128_S128x128_S2000x128_1_0_0_1_n_n none l r (constant S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mmA_lhs_0 _ _
    | ⟨1, _⟩ => exact (mmA_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (mmA_rhs_0 _ _).trans hk
    | ⟨1, _⟩ => exact mmA_rhs_1 _ _)
  rw [el, er]

/-! ### The bias row repeated down a block -/

theorem biasA_apply (b : FVec Ideal S1x128 .f32) (p : Fin 2000) (q : Fin 128) :
    broadcastTo S2000x128 (shapeCast S1x128 b shapeCasts_S1x128_S1x128) broadcasts_S1x128_S2000x128 (ix2 p q) = b (ix2 0 q) := by
  rw [shapeCast_self]
  exact broadcastTo_apply b broadcasts_S1x128_S2000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

end Cert.KernelIdeal.Dense

end
-- ==== Proof.DenseBody.lean ====
/-
  What one grid point of each dense layer stores, read at an entry, at the ideal instance.

  A point of the first layer holds a block of 2000 rows of the mean-aggregated features `a` and of the node
  features `h`, the two whole weight matrices and the bias row, and stores
      max( a·Wl + h·Wr + b , 0 )
  (a change of float format is the identity here, the matrix unit's product into a zero accumulator is the plain
  sum over the contracted axis, the bias row is repeated down the block). The second layer stores the same without
  the clamp at zero, into 64 columns.
-/
import proofs.«159466_j1090921693773_1_alg».proof.Proof.Gen.KernelIdeal.Skeleton
import proofs.«159466_j1090921693773_1_alg».proof.Proof.MatmulA
import proofs.«159466_j1090921693773_1_alg».proof.Proof.MatmulB

noncomputable section

namespace Cert.KernelIdeal.Dense

open Cert.KernelIdeal Cert.KernelIdeal.Gen Idealize.ShloMosaic Idealize.ShloMosaic.ValueIdx

/-- First layer: entry `(p, q)` of the stored block is `max (a·Wl + h·Wr + b) 0` at that entry. -/
theorem pay0_apply (a h : Vec Ideal S2000x128 .f32) (wl wr : Vec Ideal S128x128 .bf16) (b : Vec Ideal S1x128 .f32)
    (p : Fin 2000) (q : Fin 128) :
    k0_pay1 (F := Ideal) a h wl wr b (ix2 p q)
      = max ((∑ k : Fin 128, a (ix2 p k) * wl (ix2 k q)) + (∑ k : Fin 128, h (ix2 p k) * wr (ix2 k q)) + b (ix2 0 q)) 0 := by
  unfold k0_pay1
  show max ((matmul (F := Ideal) dot_S2000x128_S128x128_S2000x128_1_0_0_1_n_n none (truncf (F := Ideal) .bf16 (shapeCast S2000x128 a shapeCasts_S2000x128_S2000x128) bitsLt_bf16_f32) (shapeCast S128x128 wl shapeCasts_S128x128_S128x128) (constant (F := Ideal) S2000x128 .f32 0x00000000#32) (ix2 p q)
      + matmul (F := Ideal) dot_S2000x128_S128x128_S2000x128_1_0_0_1_n_n none (truncf (F := Ideal) .bf16 h bitsLt_bf16_f32) (shapeCast S128x128 wr shapeCasts_S128x128_S128x128) (constant (F := Ideal) S2000x128 .f32 0x00000000#32) (ix2 p q))
      + broadcastTo S2000x128 (shapeCast S1x128 b shapeCasts_S1x128_S1x128) broadcasts_S1x128_S2000x128 (ix2 p q)) (Ideal.ofBits .f32 0x00000000#32) = _
  rw [mmA_apply, mmA_apply, biasA_apply, Ideal.ofBits_zero_f32, shapeCast_self, shapeCast_self, shapeCast_self]
  rfl

/-- Second layer: entry `(p, q)` of the stored block is `a·Wl + h·Wr + b` at that entry. -/
theorem pay1_apply (a h : Vec Ideal S2000x128 .f32) (wl wr : Vec Ideal S128x64 .bf16) (b : Vec Ideal S1x64 .f32)
    (p : Fin 2000) (q : Fin 64) :
    k1_pay1 (F := Ideal) a h wl wr b (ix2 p q)
      = (∑ k : Fin 128, a (ix2 p k) * wl (ix2 k q)) + (∑ k : Fin 128, h (ix2 p k) * wr (ix2 k q)) + b (ix2 0 q) := by
  unfold k1_pay1
  show (matmul (F := Ideal) dot_S2000x128_S128x64_S2000x64_1_0_0_1_n_n none (truncf (F := Ideal) .bf16 (shapeCast S2000x128 a shapeCasts_S2000x128_S2000x128) bitsLt_bf16_f32) (shapeCast S128x64 wl shapeCasts_S128x64_S128x64) (constant (F := Ideal) S2000x64 .f32 0x00000000#32) (ix2 p q)
      + matmul (F := Ideal) dot_S2000x128_S128x64_S2000x64_1_0_0_1_n_n none (truncf (F := Ideal) .bf16 (shapeCast S2000x128 h shapeCasts_S2000x128_S2000x128) bitsLt_bf16_f32) (shapeCast S128x64 wr shapeCasts_S128x64_S128x64) (constant (F := Ideal) S2000x64 .f32 0x00000000#32) (ix2 p q))
      + broadcastTo S2000x64 (shapeCast S1x64 b shapeCasts_S1x64_S1x64) broadcasts_S1x64_S2000x64 (ix2 p q) = _
  rw [mmB_apply, mmB_apply, biasB_apply, shapeCast_self, shapeCast_self, shapeCast_self, shapeCast_self]
  rfl

end Cert.KernelIdeal.Dense

end
-- ==== Proof.Layers.lean ====
/-
  The two dense layers as functions of whole arrays, index by index, on the extended reals.

  For node `n` and output column `q`, with `a` the mean-aggregated neighbour features and `h` the node's own:
      first layer   max( Σₖ a[n,k]·Wl[k,q] + Σₖ h[n,k]·Wr[k,q] + b[q] , 0 )          (128 columns)
      second layer       Σₖ a[n,k]·Wl[k,q] + Σₖ h[n,k]·Wr[k,q] + b[q]                (64 columns)
  Row `n` of the result depends on row `n` of `a` and `h` only, which is what lets 25 blocks of 2000 rows be
  computed independently and laid side by side.
-/
import proofs.«159466_j1090921693773_1_alg».proof.KernelIdeal
import Idealize.ShloMosaic.Lib.ValueIdx
import Idealize.ShloMosaic.PureOps.Ideal

noncomputable section

namespace Cert.KernelIdeal.Dense

open Cert.KernelIdeal Idealize.ShloMosaic Idealize.ShloMosaic.ValueIdx

/-- The first layer of whole arrays: bias after both products, clamped below at zero. -/
def layer0 (a h : S50000x128.Idx → EReal) (wl : S128x128.Idx → EReal) (b : S1x128.Idx → EReal) (wr : S128x128.Idx → EReal) :
    S50000x128.Idx → EReal :=
  fun i => max ((∑ k : Fin 128, a (ix2 (i 0) k) * wl (ix2 k (i 1))) + (∑ k : Fin 128, h (ix2 (i 0) k) * wr (ix2 k (i 1))) + b (ix2 0 (i 1))) 0

/-- The second layer of whole arrays: bias after both products, no clamp, 64 columns. -/
def layer1 (a h : S50000x128.Idx → EReal) (wl : S128x64.Idx → EReal) (b : S1x64.Idx → EReal) (wr : S128x64.Idx → EReal) :
    S50000x64.Idx → EReal :=
  fun i => (∑ k : Fin 128, a (ix2 (i 0) k) * wl (ix2 k (i 1))) + (∑ k : Fin 128, h (ix2 (i 0) k) * wr (ix2 k (i 1))) + b (ix2 0 (i 1))

end Cert.KernelIdeal.Dense

end
-- ==== Proof.Region0.lean ====
/-
  The first dense layer as the kernel region computes it: the whole output array after the region.

  The region runs 25 grid points. Point `t` reads rows 2000·t … 2000·t + 1999 of the mean-aggregated features and
  of the node features, the two whole weight matrices and the bias row, and writes back rows 2000·t … of the output.
  What it writes is its block of ONE function of the whole arrays (the layer, row by row), and the 25 blocks tile the
  50000 rows; so the array ends holding that function.
-/
import proofs.«159466_j1090921693773_1_alg».proof.Proof.Gen.KernelIdeal.Frame
import proofs.«159466_j1090921693773_1_alg».proof.Proof.DenseBody
import proofs.«159466_j1090921693773_1_alg».proof.Proof.Layers

set_option maxRecDepth 16384

noncomputable section

namespace Cert.KernelIdeal.Region0

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two feature windows and the output move down 2000 rows per
    point; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer of the arrays as the region finds them. -/
theorem flushed_eq (c : Dev nD) (t : Fin cfg0.N) :
    (dat0 V c).flushed 5 t = ((cfg0.win 5).blk t).view.read (Elt Ideal)
      (layer0 (V c main_v24) (V c main_arg0) (V c main_v25) (V c main_v27) (V c main_v26)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 4 t) (iblk0 V c 3 t) j
    = layer0 (V c main_v24) (V c main_arg0) (V c main_v25) (V c main_v27) (V c main_v26) (((cfg0.win 5).blk t).view.emb j)
  obtain ⟨p, q, rfl⟩ : ∃ (p : Fin 2000) (q : Fin 128), j = ix2 p q := ⟨j 0, j 1, eq_ix2 j⟩
  rw [pay0_apply (iblk0 V c 0 t) (iblk0 V c 1 t) (iblk0 V c 2 t) (iblk0 V c 4 t) (iblk0 V c 3 t) p q]
  -- each input block read where the output block's rectangle says: a block's coordinate is index × size + the coordinate inside
  have ha : ∀ k : Fin 128, iblk0 V c 0 t (ix2 p k) = V c main_v24 (ix2 ((((cfg0.win 5).blk t).view.emb (ix2 p q)) 0) k) := fun k => by
    show V c main_v24 (((cfg0.win 0).blk t).view.emb (ix2 p k)) = _
    refine congrArg (V c main_v24) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  have hh : ∀ k : Fin 128, iblk0 V c 1 t (ix2 p k) = V c main_arg0 (ix2 ((((cfg0.win 5).blk t).view.emb (ix2 p q)) 0) k) := fun k => by
    show V c main_arg0 (((cfg0.win 1).blk t).view.emb (ix2 p k)) = _
    refine congrArg (V c main_arg0) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  have hwl : ∀ k : Fin 128, iblk0 V c 2 t (ix2 k q) = V c main_v25 (ix2 k ((((cfg0.win 5).blk t).view.emb (ix2 p q)) 1)) := fun k => by
    show V c main_v25 (((cfg0.win 2).blk t).view.emb (ix2 k q)) = _
    refine congrArg (V c main_v25) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have hwr : ∀ k : Fin 128, iblk0 V c 4 t (ix2 k q) = V c main_v26 (ix2 k ((((cfg0.win 5).blk t).view.emb (ix2 p q)) 1)) := fun k => by
    show V c main_v26 (((cfg0.win 4).blk t).view.emb (ix2 k q)) = _
    refine congrArg (V c main_v26) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  have hb : iblk0 V c 3 t (ix2 0 q) = V c main_v27 (ix2 0 ((((cfg0.win 5).blk t).view.emb (ix2 p q)) 1)) := by
    show V c main_v27 (((cfg0.win 3).blk t).view.emb (ix2 0 q)) = _
    refine congrArg (V c main_v27) (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega
  simp only [ha, hh, hwl, hwr, hb]
  rfl

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- Every block of 2000 rows is SOME point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- THE COVER: row `r` of the output is written by point `r / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE ARRAY after the region: the layer of the arrays as the region finds them. -/
theorem arr_eq (c : Dev nD) :
    (dat0 V c).arrAt 5 cfg0.N = layer0 (V c main_v24) (V c main_arg0) (V c main_v25) (V c main_v27) (V c main_v26) :=
  (dat0 V c).arrAt_eq_of_cover 5 _ (fun t _ => flushed_eq V c t) cover

end Cert.KernelIdeal.Region0

end
-- ==== Proof.HostTerms.lean ====
/-
  The kernel program's host arithmetic around its two dense layers, as functions of the argument arrays.

  From the edge list `e` (row 0 the sources, row 1 the destinations): `kDst` the destinations; `kSrc` the sources with a
  negative index wrapped once by the node count; `kCnt` each node's in-degree (a one added per edge that ends there),
  clamped below at one; `kInv` its reciprocal; `kSum h` the features `h` of each edge's source added into the edge's
  destination; `kMean h` that sum scaled by the reciprocal, row by row. Both layers aggregate with the same `kMean`,
  the first of the input features, the second of the first layer's output.
-/
import proofs.«159466_j1090921693773_1_alg».proof.Proof.Gen.KernelIdeal

noncomputable section

namespace Cert.KernelIdeal.HostTerms

open Cert.KernelIdeal Cert.KernelIdeal.Gen Idealize.ShloMosaic

variable {F : FTy → Type} [FloatOps F]

/-- Row 1 of the edge list: where each edge ends. -/
def kDst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Row 0 of the edge list: where each edge starts, as given. -/
def kSrc0 (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The sources with a negative index wrapped once by the node count. -/
def kSrc (e : (⟨S2x800000, .i32⟩ : BufTy).Contents (Elt F)) : (⟨S800000, .i32⟩ : BufTy).Contents (Elt F) :=
  select (cmpi .slt (kSrc0 (F := F) e) (broadcastInDim S800000 ![] bcast_S_S800000 (constantI S_ 32 0#32)))
    (addi (kSrc0 (F := F) e) (broadcastInDim S800000 ![] bcast_S_S800000 (constantI S_ 32 50000#32))) (kSrc0 (F := F) e)

/-- Each node's in-degree, clamped below at one. -/
def kCnt (e : (⟨S2x800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 (kDst (F := F) e))
      (broadcastInDim S800000 ![] bcast_S_S800000 (constant S_ .f32 0x3F800000#32)))
    (broadcastInDim S50000 ![] bcast_S_S50000 (constant S_ .f32 0x3F800000#32))

/-- The reciprocal of the clamped in-degree. -/
def kInv (e : (⟨S2x800000, .i32⟩ : BufTy).Contents (Elt F)) : (⟨S50000, .f32⟩ : BufTy).Contents (Elt F) :=
  Host.divf (broadcastInDim S50000 ![] bcast_S_S50000 (constant S_ .f32 0x3F800000#32)) (kCnt (F := F) e)

/-- The features of each edge's source, added into the row of the edge's destination. -/
def kSum (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (kDst (F := F) e))
    (Host.gather gather_S50000x128_S800000x1_S800000x128_1_0_n_n_0_1_1128 h
      (broadcastInDim S800000x1 ![0] bcast_S800000_S800000x1_0 (kSrc (F := F) e)))

/-- The mean aggregation as the kernel program spells it: the sum times the reciprocal of the clamped in-degree. -/
def kMean (h : (⟨S50000x128, .f32⟩ : BufTy).Contents (Elt F)) (e : (⟨S2x800000, .i32⟩ : BufTy).Contents (Elt F)) :
    (⟨S50000x128, .f32⟩ : BufTy).Contents (Elt F) :=
  mulf (kSum (F := F) h e)
    (broadcastInDim S50000x128 ![0, 1] bcast_S50000x1_S50000x128_0_1
      (broadcastInDim S50000x1 ![0] bcast_S50000_S50000x1_0 (kInv (F := F) e)))

end Cert.KernelIdeal.HostTerms

end
-- ==== Proof.Boundary.lean ====
/-
  What the kernel regions find in their windows' arrays: the buffer contents at the two region entries, read back
  through the host operations to the argument arrays.

  Before the first region the host has aggregated the input features (`kMean` of the input), converted the two first
  weight matrices and reshaped the first bias; before the second it has aggregated the FIRST REGION'S OUTPUT with the
  same edge list and the same reciprocal in-degrees, converted the second weights and reshaped the second bias. No
  host operation writes an argument array or the first region's output.
-/
import proofs.«159466_j1090921693773_1_alg».proof.Proof.Gen.KernelIdeal.Frame
import proofs.«159466_j1090921693773_1_alg».proof.Proof.HostTerms

set_option maxRecDepth 16384

noncomputable section

namespace Cert.KernelIdeal.Boundary

open Cert.KernelIdeal Cert.KernelIdeal.Gen Cert.KernelIdeal.HostTerms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first region's entry -/

theorem W1_src0 (c : Dev nD) : W1 m ρ c (Proc.devRef .tc main_v1) = kSrc0 (F := F) (m ((c : Thread nD τ).loc main_arg1)) := by
  show StableHlo.after hostOps0 (W0 m ρ c) (Proc.devRef .tc main_v1) = _
  after_results_simp <;> rfl

theorem W1_dst (c : Dev nD) : W1 m ρ c (Proc.devRef .tc main_v3) = kDst (F := F) (m ((c : Thread nD τ).loc main_arg1)) := by
  show StableHlo.after hostOps0 (W0 m ρ c) (Proc.devRef .tc main_v3) = _
  after_results_simp <;> rfl

theorem W1_inv (c : Dev nD) : W1 m ρ c (Proc.devRef .tc main_v11) = kInv (F := F) (m ((c : Thread nD τ).loc main_arg1)) := by
  show StableHlo.after hostOps0 (W0 m ρ c) (Proc.devRef .tc main_v11) = _
  after_results_simp <;> rfl

/-- The first aggregation: the mean of the input features. -/
theorem W1_mean (c : Dev nD) :
    W1 m ρ c (Proc.devRef .tc main_v24) = kMean (F := F) (m ((c : Thread nD τ).loc main_arg0)) (m ((c : Thread nD τ).loc main_arg1)) := by
  show StableHlo.after hostOps0 (W0 m ρ c) (Proc.devRef .tc main_v24) = _
  after_results_simp <;> rfl

theorem W1_x (c : Dev nD) : W1 m ρ c (Proc.devRef .tc main_arg0) = (m ((c : Thread nD τ).loc main_arg0)) := by
  show StableHlo.after hostOps0 (W0 m ρ c) (Proc.devRef .tc main_arg0) = _
  after_results_simp <;> rfl

theorem W1_wl (c : Dev nD) :
    W1 m ρ c (Proc.devRef .tc main_v25) = truncf (F := F) .bf16 ((m ((c : Thread nD τ).loc main_arg2)) : FVec F S128x128 .f32) bitsLt_bf16_f32 := by
  show StableHlo.after hostOps0 (W0 m ρ c) (Proc.devRef .tc main_v25) = _
  after_results_simp <;> rfl

theorem W1_wr (c : Dev nD) :
    W1 m ρ c (Proc.devRef .tc main_v26) = truncf (F := F) .bf16 ((m ((c : Thread nD τ).loc main_arg4)) : FVec F S128x128 .f32) bitsLt_bf16_f32 := by
  show StableHlo.after hostOps0 (W0 m ρ c) (Proc.devRef .tc main_v26) = _
  after_results_simp <;> rfl

theorem W1_b (c : Dev nD) :
    W1 m ρ c (Proc.devRef .tc main_v27) = shapeCast S1x128 ((m ((c : Thread nD τ).loc main_arg3)) : FVec F S128 .f32) shapeCasts_S128_S1x128 := by
  show StableHlo.after hostOps0 (W0 m ρ c) (Proc.devRef .tc main_v27) = _
  after_results_simp <;> rfl

/-! ## The second region's entry -/

/-- The second aggregation: the same mean, of the first region's output. -/
theorem W3_mean (c : Dev nD) :
    W3 m ρ c (Proc.devRef .tc main_v41)
      = kMean (F := F) (W2 m ρ c (Proc.devRef .tc main_v28)) (m ((c : Thread nD τ).loc main_arg1)) := by
  show StableHlo.after hostOps1 (W2 m ρ c) (Proc.devRef .tc main_v41) = _
  after_results_simp
  rw [W2_of_ne m ρ c main_v1 (by decide), W2_of_ne m ρ c main_v3 (by decide), W2_of_ne m ρ c main_v11 (by decide),
    W1_src0, W1_dst, W1_inv]
  rfl

/-- The second region reads the first region's output as the first region left it. -/
theorem W3_h (c : Dev nD) : W3 m ρ c (Proc.devRef .tc main_v28) = W2 m ρ c (Proc.devRef .tc main_v28) := by
  show StableHlo.after hostOps1 (W2 m ρ c) (Proc.devRef .tc main_v28) = _
  after_results_simp <;> rfl

theorem W2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl

theorem W2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl

theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp <;> rfl

theorem W3_wl (c : Dev nD) :
    W3 m ρ c (Proc.devRef .tc main_v42) = truncf (F := F) .bf16 ((m ((c : Thread nD τ).loc main_arg5)) : FVec F S128x64 .f32) bitsLt_bf16_f32 := by
  show StableHlo.after hostOps1 (W2 m ρ c) (Proc.devRef .tc main_v42) = _
  after_results_simp
  rw [W2_arg5]

theorem W3_wr (c : Dev nD) :
    W3 m ρ c (Proc.devRef .tc main_v43) = truncf (F := F) .bf16 ((m ((c : Thread nD τ).loc main_arg7)) : FVec F S128x64 .f32) bitsLt_bf16_f32 := by
  show StableHlo.after hostOps1 (W2 m ρ c) (Proc.devRef .tc main_v43) = _
  after_results_simp
  rw [W2_arg7]

theorem W3_b (c : Dev nD) :
    W3 m ρ c (Proc.devRef .tc main_v44) = shapeCast S1x64 ((m ((c : Thread nD τ).loc main_arg6)) : FVec F S64 .f32) shapeCasts_S64_S1x64 := by
  show StableHlo.after hostOps1 (W2 m ρ c) (Proc.devRef .tc main_v44) = _
  after_results_simp
  rw [W2_arg6]
  rfl

end Cert.KernelIdeal.Boundary

end
-- ==== Proof.MeanTerms.lean ====
/-
  The host operations the two programs share, identified.

  Both programs gather the features of each edge's source and add them into the row of the edge's destination, and
  both count each node's in-degree by adding a one per edge; the kernel program does it once, the reference once per
  layer, always with the same operations on the same operands. These are equalities of whole terms: nothing is
  evaluated.
-/
import proofs.«159466_j1090921693773_1_alg».proof.Proof.HostTerms
import proofs.«159466_j1090921693773_1_alg».proof.Proof.Gen.ReferenceIdeal.Read

noncomputable section

namespace Cert.Sage

open Idealize.ShloMosaic
open Cert.KernelIdeal.HostTerms Cert.ReferenceIdeal.Read

/-- The edge sums are one term: the same gather and the same accumulating scatter of the same operands. -/
theorem kSum_eq (h : (⟨Cert.ReferenceIdeal.S50000x128, .f32⟩ : BufTy).Contents (Elt Ideal)) (e : (⟨Cert.ReferenceIdeal.S2x800000, .i32⟩ : BufTy).Contents (Elt Ideal)) :
    kSum (F := Ideal) h e = val_main_v13 (F := Ideal) h e := rfl

/-- The clamped in-degrees are one term. -/
theorem kCnt_eq (e : (⟨Cert.ReferenceIdeal.S2x800000, .i32⟩ : BufTy).Contents (Elt Ideal)) :
    kCnt (F := Ideal) e = val_main_v19 (F := Ideal) e := rfl

/-- The second layer's aggregation in the reference is the same mean, of the first layer's output. -/
theorem mean2_eq (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) :
    val_main_v48 (F := Ideal) x0 x1 x2 x3 x4 = val_main_v22 (F := Ideal) (val_main_v29 (F := Ideal) x0 x1 x2 x3 x4) x1 := rfl

end Cert.Sage

end
-- ==== Proof.Algebra.lean ====
/-
  The arithmetic on the extended reals that joins the two programs.

  The kernel scales a node's summed neighbour features by the RECIPROCAL of its clamped in-degree,
  `s * (1 / max(n, 1))`; the reference DIVIDES by it, `s / max(n, 1)`. The in-degree `n` is a count of edges, a
  finite sum of ones, hence a real number and never negative; clamped below at one it is a nonzero real, and dividing
  by a nonzero real is multiplying by its reciprocal at every extended real, the infinities included. So the two
  means agree with no assumption on `s`.
-/
import Idealize.ShloMosaic.PureOps.Ideal
import Idealize.ShloMosaic.PureOps.Ideal.Laws

noncomputable section

namespace Cert.Sage

open Idealize.ShloMosaic

/-- The host's accumulating scatter read at an index: the operand's entry plus the sum of the updates that land there
    (stated over any shapes, so that nothing of a particular size is ever unfolded to use it). -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- The host's division read at an index. -/
theorem hostDivf_apply {s : Shape} {φ : FTy} (a b : FVec Ideal s φ) (i : s.Idx) :
    Host.divf (F := Ideal) a b i = Ideal.div (a i) (b i) := rfl

/-- The float literal `1.0` denotes the real number one. -/
theorem ofBits_one : Ideal.ofBits .f32 0x3F800000#32 = ((1 : ℝ) : EReal) := by
  simp [Ideal.ofBits, Ideal.ieee, -EReal.coe_mul]; norm_num

/-- A finite sum of real numbers taken in the extended reals is the real sum. -/
theorem sum_coe {α : Type*} (S : Finset α) (f : α → ℝ) :
    ∑ j ∈ S, ((f j : ℝ) : EReal) = ((∑ j ∈ S, f j : ℝ) : EReal) := by
  classical
  induction S using Finset.induction_on with
  | empty => simp
  | insert a s ha ih => rw [Finset.sum_insert ha, Finset.sum_insert ha, ih, EReal.coe_add]

/-- Zero plus one for each element of a finite set is that set's size: a real number, not negative. -/
theorem count_real {α : Type*} (S : Finset α) :
    ∃ n : ℝ, 0 ≤ n ∧ (0 : EReal) + ∑ _j ∈ S, ((1 : ℝ) : EReal) = ((n : ℝ) : EReal) :=
  ⟨(S.card : ℝ), Nat.cast_nonneg _, by rw [zero_add, sum_coe]; simp⟩

/-- Scaling by the reciprocal of a count clamped below at one is dividing by it, at every extended real `s`. -/
theorem mul_inv_eq_div (s : EReal) (n : ℝ) :
    s * Ideal.div ((1 : ℝ) : EReal) (max ((n : ℝ) : EReal) ((1 : ℝ) : EReal))
      = Ideal.div s (max ((n : ℝ) : EReal) ((1 : ℝ) : EReal)) := by
  have hm : max ((n : ℝ) : EReal) ((1 : ℝ) : EReal) = ((max n 1 : ℝ) : EReal) := (EReal.coe_strictMono.monotone.map_max (a := n) (b := 1)).symm
  have hne : (max n 1 : ℝ) ≠ 0 := by
    have : (1 : ℝ) ≤ max n 1 := le_max_right _ _
    intro h; rw [h] at this; linarith
  rw [hm, Ideal.div_coe hne, Ideal.div_coe hne, EReal.coe_one, one_mul]

end Cert.Sage

end
-- ==== Proof.MeanBridge.lean ====
/-
  The kernel program's mean aggregation is the reference's.

  The two programs differ only in how the edge sum meets the in-degree: the kernel multiplies by `1 / max(n, 1)`, the
  reference divides by `max(n, 1)`. The in-degree is zero plus a one for each edge of a finite set, a real number; so
  the two agree at every entry, whatever the sum is.
-/
import proofs.«159466_j1090921693773_1_alg».proof.Proof.MeanTerms
import proofs.«159466_j1090921693773_1_alg».proof.Proof.Algebra
import Idealize.ShloMosaic.Lib.Pipeline.Value
import Idealize.ShloMosaic.Lib.ValueIdx

noncomputable section

namespace Cert.Sage

open Idealize.ShloMosaic Idealize.ShloMosaic.ValueIdx
open Cert.KernelIdeal.HostTerms Cert.ReferenceIdeal.Read

/-- A node's in-degree is a real number: zero plus a one per edge that ends there. -/
theorem cnt_real (e : (⟨Cert.ReferenceIdeal.S2x800000, .i32⟩ : BufTy).Contents (Elt Ideal)) (j : Cert.ReferenceIdeal.S50000.Idx) :
    ∃ n : ℝ, val_main_v17 (F := Ideal) e j = ((n : ℝ) : EReal) := by
  unfold val_main_v17
  rw [Cert.Sage.scatterAdd_apply]
  simp only [val_main_v15_apply, val_main_cst_2_apply, val_main_v14_apply, val_main_cst_1_apply, Ideal.ofBits_def,
    Ideal.ofBits_zero_f32, Cert.Sage.ofBits_one]
  exact (Cert.Sage.count_real _).imp fun n hn => hn.2

/-- THE MEAN: the sum times the reciprocal of the clamped in-degree is the sum divided by it, entry by entry. -/
theorem kMean_eq (h : (⟨Cert.ReferenceIdeal.S50000x128, .f32⟩ : BufTy).Contents (Elt Ideal)) (e : (⟨Cert.ReferenceIdeal.S2x800000, .i32⟩ : BufTy).Contents (Elt Ideal)) :
    kMean (F := Ideal) h e = val_main_v22 (F := Ideal) h e := by
  funext i
  obtain ⟨n, hn⟩ := cnt_real e (idx_main_v20 (idx_main_v21 i))
  have hl : kMean (F := Ideal) h e i
      = val_main_v13 (F := Ideal) h e i * Ideal.div (Ideal.ofBits .f32 0x3F800000#32)
          (max (val_main_v17 (F := Ideal) e (idx_main_v20 (idx_main_v21 i))) (Ideal.ofBits .f32 0x3F800000#32)) := by
    unfold kMean kInv
    rw [kSum_eq, kCnt_eq, mulf_apply]
    rw [broadcastInDim_apply _ _ _ i (idx_main_v21 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])]
    rw [broadcastInDim_apply _ _ _ (idx_main_v21 i) (idx_main_v20 (idx_main_v21 i)) (fun a => match a with
      | ⟨0, _⟩ => by show ((idx_main_v21 i) 0).val = if (50000 : Nat) = 1 then 0 else ((idx_main_v21 i) 0).val; rw [if_neg (by decide)])]
    rw [Cert.Sage.hostDivf_apply, broadcastInDim_apply _ _ _ (idx_main_v20 (idx_main_v21 i)) ix0 (fun a => a.elim0), constant_apply,
      val_main_v19_apply, val_main_v18_apply, val_main_cst_3_apply, Ideal.maximumf_def, Ideal.ofBits_def]
  have hr : val_main_v22 (F := Ideal) h e i
      = Ideal.div (val_main_v13 (F := Ideal) h e i)
          (max (val_main_v17 (F := Ideal) e (idx_main_v20 (idx_main_v21 i))) (Ideal.ofBits .f32 0x3F800000#32)) := by
    rw [val_main_v22_apply, val_main_v21_apply, val_main_v20_apply, val_main_v19_apply, val_main_v18_apply, val_main_cst_3_apply,
      Ideal.hostDivf_def, Ideal.maximumf_def, Ideal.ofBits_def]
  rw [hl, hr, hn, Cert.Sage.ofBits_one]
  exact Cert.Sage.mul_inv_eq_div _ n

end Cert.Sage

end
-- ==== Proof.LayerBridge.lean ====
/-
  Each dense layer of whole arrays is the reference's.

  The reference computes `a·Wl + b + h·Wr` with host products; the kernel's layer is `a·Wl + h·Wr + b`. A host product
  and the matrix unit's are the same sum over the contracted axis, the weights converted to a narrower format are the
  weights, the bias reshaped to one row is the bias repeated down the rows, and addition on the extended reals is
  commutative and associative: the two are equal entry by entry, with no assumption on the entries.
-/
import proofs.«159466_j1090921693773_1_alg».proof.Proof.Layers
import proofs.«159466_j1090921693773_1_alg».proof.Proof.Gen.ReferenceIdeal.Read
import Idealize.ShloMosaic.Lib.Pipeline.Value
import Idealize.ShloMosaic.Lib.ValueIdx

noncomputable section

namespace Cert.Sage

open Idealize.ShloMosaic Idealize.ShloMosaic.ValueIdx
open Cert.KernelIdeal.Dense Cert.ReferenceIdeal.Read

/-- FIRST LAYER: the kernel's layer of the reference's mean, the features, the converted weights and the reshaped
    bias is the reference's hidden features. -/
theorem layer0_eq (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (hb : FTy.bf16.bits < FTy.f32.bits) (hs : Cert.ReferenceIdeal.S128.ShapeCasts Cert.KernelIdeal.S1x128) :
    layer0 (val_main_v22 (F := Ideal) x0 x1) x0 (truncf (F := Ideal) .bf16 x2 hb) (shapeCast Cert.KernelIdeal.S1x128 x3 hs)
        (truncf (F := Ideal) .bf16 x4 hb)
      = val_main_v29 (F := Ideal) x0 x1 x2 x3 x4 := by
  funext i
  rw [val_main_v29_apply, val_main_call0_v0_apply, val_main_call0_cst_apply, val_main_v28_apply, val_main_v26_apply,
    val_main_v23_apply, val_main_v25_apply, val_main_v24_apply, val_main_v27_apply]
  unfold layer0
  have e1 : ∀ k : Fin 128, lidx_main_v23 i k = ix2 (i 0) k := fun k => funext fun a => by
    match a with
    | ⟨0, _⟩ => rfl
    | ⟨1, _⟩ => rfl
  have e2 : ∀ k : Fin 128, ridx_main_v23 i k = ix2 k (i 1) := fun k => funext fun a => by
    match a with
    | ⟨0, _⟩ => rfl
    | ⟨1, _⟩ => rfl
  have e3 : ∀ k : Fin 128, lidx_main_v27 i k = ix2 (i 0) k := fun k => funext fun a => by
    match a with
    | ⟨0, _⟩ => rfl
    | ⟨1, _⟩ => rfl
  have e4 : ∀ k : Fin 128, ridx_main_v27 i k = ix2 k (i 1) := fun k => funext fun a => by
    match a with
    | ⟨0, _⟩ => rfl
    | ⟨1, _⟩ => rfl
  have ebias : shapeCast Cert.KernelIdeal.S1x128 x3 hs (ix2 0 (i 1)) = x3 (idx_main_v24 (idx_main_v25 i)) :=
    shapeCast_apply x3 hs (ix2 0 (i 1)) (idx_main_v24 (idx_main_v25 i)) (by
      rw [Shape.rowMajor_val_one, Shape.rowMajor_val_two]
      show (i 1).val = 0 * 128 + (i 1).val
      omega)
  simp only [e1, e2, e3, e4, ebias, truncf_apply, Ideal.maximumf_def, Ideal.addf_def, Ideal.ofBits_def, Ideal.ofBits_zero_f32]
  rw [add_right_comm]
  rfl

/-- SECOND LAYER: the kernel's layer of the reference's second mean, its hidden features, the converted weights and
    the reshaped bias is the reference's result. -/
theorem layer1_eq (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S128x64, .f32⟩ : BufTy).Contents (Elt Ideal))
    (hb : FTy.bf16.bits < FTy.f32.bits) (hs : Cert.ReferenceIdeal.S64.ShapeCasts Cert.KernelIdeal.S1x64) :
    layer1 (val_main_v48 (F := Ideal) x0 x1 x2 x3 x4) (val_main_v29 (F := Ideal) x0 x1 x2 x3 x4)
        (truncf (F := Ideal) .bf16 x5 hb) (shapeCast Cert.KernelIdeal.S1x64 x6 hs) (truncf (F := Ideal) .bf16 x7 hb)
      = val_main_v54 (F := Ideal) x0 x1 x2 x3 x4 x5 x6 x7 := by
  funext i
  rw [val_main_v54_apply, val_main_v52_apply, val_main_v49_apply, val_main_v51_apply, val_main_v50_apply, val_main_v53_apply]
  unfold layer1
  have e1 : ∀ k : Fin 128, lidx_main_v49 i k = ix2 (i 0) k := fun k => funext fun a => by
    match a with
    | ⟨0, _⟩ => rfl
    | ⟨1, _⟩ => rfl
  have e2 : ∀ k : Fin 128, ridx_main_v49 i k = ix2 k (i 1) := fun k => funext fun a => by
    match a with
    | ⟨0, _⟩ => rfl
    | ⟨1, _⟩ => rfl
  have e3 : ∀ k : Fin 128, lidx_main_v53 i k = ix2 (i 0) k := fun k => funext fun a => by
    match a with
    | ⟨0, _⟩ => rfl
    | ⟨1, _⟩ => rfl
  have e4 : ∀ k : Fin 128, ridx_main_v53 i k = ix2 k (i 1) := fun k => funext fun a => by
    match a with
    | ⟨0, _⟩ => rfl
    | ⟨1, _⟩ => rfl
  have ebias : shapeCast Cert.KernelIdeal.S1x64 x6 hs (ix2 0 (i 1)) = x6 (idx_main_v50 (idx_main_v51 i)) :=
    shapeCast_apply x6 hs (ix2 0 (i 1)) (idx_main_v50 (idx_main_v51 i)) (by
      rw [Shape.rowMajor_val_one, Shape.rowMajor_val_two]
      show (i 1).val = 0 * 64 + (i 1).val
      omega)
  simp only [e1, e2, e3, e4, ebias, truncf_apply, Ideal.addf_def]
  rw [add_right_comm]
  rfl

end Cert.Sage

end
-- ==== Proof.KernelValue.lean ====
/-
  The kernel program's result, as the reference's term of the kernel's own arguments.

  The first region's output is the first dense layer of (the mean of the input features, the input features, the
  converted first weights, the first bias as a row): the reference's hidden features. The second region's output is
  the second dense layer of (the same mean of those hidden features, the hidden features, the converted second
  weights, the second bias as a row): the reference's result. Each step is one of three facts: what a region leaves in
  its output array, what the host operations put in its windows' arrays, and that the kernel's mean and layers are
  the reference's.
-/
import proofs.«159466_j1090921693773_1_alg».proof.Proof.KernelRun
import proofs.«159466_j1090921693773_1_alg».proof.Proof.Region0
import proofs.«159466_j1090921693773_1_alg».proof.Proof.Region1
import proofs.«159466_j1090921693773_1_alg».proof.Proof.Boundary
import proofs.«159466_j1090921693773_1_alg».proof.Proof.MeanBridge
import proofs.«159466_j1090921693773_1_alg».proof.Proof.LayerBridge

set_option maxRecDepth 16384

noncomputable section

namespace Cert.Sage

open Cert.KernelIdeal Cert.KernelIdeal.Gen Cert.KernelIdeal.HostTerms Cert.KernelIdeal.Dense
open Cert.ReferenceIdeal.Read
open Idealize.ShloMosaic Idealize.ShloMosaic.TcCoe Idealize.SL.Sem

variable (m : (ℓ : Loc nD τ sig) → Buf (Elt Ideal) ℓ) (ρ : Dev nD → PrngReg)

/-- After the first region its output array holds the reference's hidden features of the arguments. -/
theorem hidden_eq (c : Dev nD) :
    W2 m ρ c (Proc.devRef .tc main_v28)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Cert.KernelIdeal.Region0.arr_eq (V1 m ρ) c]
  show layer0 (W1 m ρ c (Proc.devRef .tc main_v24)) (W1 m ρ c (Proc.devRef .tc main_arg0)) (W1 m ρ c (Proc.devRef .tc main_v25))
      (W1 m ρ c (Proc.devRef .tc main_v27)) (W1 m ρ c (Proc.devRef .tc main_v26)) = _
  rw [Cert.KernelIdeal.Boundary.W1_mean, Cert.KernelIdeal.Boundary.W1_x, Cert.KernelIdeal.Boundary.W1_wl,
    Cert.KernelIdeal.Boundary.W1_b, Cert.KernelIdeal.Boundary.W1_wr, kMean_eq]
  exact layer0_eq _ _ _ _ _ _ _

/-- After the second region its output array holds the reference's result of the arguments. -/
theorem out_eq (c : Dev nD) :
    W4 m ρ c (Proc.devRef .tc main_v45)
      = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ?_
  rw [Cert.KernelIdeal.Region1.arr_eq (V3 m ρ) c]
  show layer1 (W3 m ρ c (Proc.devRef .tc main_v41)) (W3 m ρ c (Proc.devRef .tc main_v28)) (W3 m ρ c (Proc.devRef .tc main_v42))
      (W3 m ρ c (Proc.devRef .tc main_v44)) (W3 m ρ c (Proc.devRef .tc main_v43)) = _
  rw [Cert.KernelIdeal.Boundary.W3_mean, Cert.KernelIdeal.Boundary.W3_h, Cert.KernelIdeal.Boundary.W3_wl,
    Cert.KernelIdeal.Boundary.W3_b, Cert.KernelIdeal.Boundary.W3_wr, hidden_eq, kMean_eq, ← mean2_eq]
  exact layer1_eq _ _ _ _ _ _ _ _ _ _

/-- THE KERNEL'S RUN: every weakly fair execution terminates, nothing faulting, with the result array at the
    reference's term of the kernel's arguments and the arguments as launched. -/
theorem run : θ_run defs (onTc (τ := τ) (main (F := Ideal))) ⟨m, fun _ => 0, ρ⟩ (fun r => ∀ c : Dev nD,
      r.2.mem ((c.tc : Thread nD τ).loc main_v45)
        = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.KernelIdeal.GenP.run_named m ρ)

end Cert.Sage

end
-- ==== Proof.lean ====
/-
  Two-layer GraphSAGE with mean aggregation over 50000 nodes and 800000 edges: the kernel program against its reference.

  Both programs, per layer, add the features of each edge's source into the row of the edge's destination, divide by the
  node's in-degree clamped below at one, and apply a dense layer `mean·Wl + b + h·Wr` (clamped at zero after the first
  layer). The kernel program computes the dense layers in two kernel regions of 25 blocks of 2000 rows and scales the sum
  by the reciprocal of the in-degree where the reference divides. On the extended reals the two agree: the in-degree is
  a real number, so dividing by it clamped at one is multiplying by its reciprocal at every value; the matrix unit's
  product into a zero accumulator and the host's are the same sum; a change of float format is the identity; and the
  order in which the bias and the second product are added does not matter. No finiteness of the inputs is used.

  The three frames are the generated ones (the reference's is its generated run with the result dropped); no operation
  was rewritten when the idealized kernel was printed, so there is nothing to preserve; the value claim is
  `Cert.Sage.run` against the reference's generated run, both ending at the same term of arguments that agree.
-/
import proofs.«159466_j1090921693773_1_alg».proof.Defs
import proofs.«159466_j1090921693773_1_alg».proof.Proof.Gen.Kernel
import proofs.«159466_j1090921693773_1_alg».proof.Proof.Gen.Kernel.Skeleton
import proofs.«159466_j1090921693773_1_alg».proof.Proof.Gen.Kernel.Launch
import proofs.«159466_j1090921693773_1_alg».proof.Proof.Gen.Kernel.Points
import proofs.«159466_j1090921693773_1_alg».proof.Proof.Gen.Kernel.Frame
import proofs.«159466_j1090921693773_1_alg».proof.Proof.Gen.KernelIdeal
import proofs.«159466_j1090921693773_1_alg».proof.Proof.Gen.KernelIdeal.Skeleton
import proofs.«159466_j1090921693773_1_alg».proof.Proof.Gen.KernelIdeal.Launch
import proofs.«159466_j1090921693773_1_alg».proof.Proof.Gen.KernelIdeal.Points
import proofs.«159466_j1090921693773_1_alg».proof.Proof.Gen.KernelIdeal.Frame
import proofs.«159466_j1090921693773_1_alg».proof.Proof.Gen.ReferenceIdeal
import proofs.«159466_j1090921693773_1_alg».proof.Proof.Gen.ReferenceIdeal.Run
import proofs.«159466_j1090921693773_1_alg».proof.Proof.Gen.ReferenceIdeal.Read
import proofs.«159466_j1090921693773_1_alg».proof.Proof.Gen.Pre_finite_inputs
import proofs.«159466_j1090921693773_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the idealized kernel was printed. -/
theorem preserves : Cert.preserves_Kernel_KernelIdeal := trivial

/-- Both programs end with the reference's term of the arguments, which agree. -/
theorem algebraic : Cert.algebraic_KernelIdeal_ReferenceIdeal := by
  intro m ρ m' ρ' _ hagree
  refine ⟨fun c => Cert.ReferenceIdeal.Read.val_main_v54 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v54_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
